-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S256x40960 : Shape := ⟨2, ![256, 40960]⟩
abbrev S256 : Shape := ⟨1, ![256]⟩
abbrev S1x512 : Shape := ⟨2, ![1, 512]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x512 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4096x40960 .f32) (main_arg1 : FVec F S4096x40960 .f32) (main_arg2 : FVec F S256x40960 .f32) (main_arg3 : FVec F S256 .f32) (main_arg4 : FVec F S1x512 .f32) (main_arg5 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x40960 : Shape := ⟨2, ![4096, 40960]⟩
abbrev S256x40960 : Shape := ⟨2, ![256, 40960]⟩
abbrev S256 : Shape := ⟨1, ![256]⟩
abbrev S1x512 : Shape := ⟨2, ![1, 512]⟩
abbrev S1 : Shape := ⟨1, ![1]⟩
abbrev S1x256 : Shape := ⟨2, ![1, 256]⟩
abbrev S1x1 : Shape := ⟨2, ![1, 1]⟩
abbrev S4096x1 : Shape := ⟨2, ![4096, 1]⟩
abbrev S1024x1024 : Shape := ⟨2, ![1024, 1024]⟩
abbrev S256x1024 : Shape := ⟨2, ![256, 1024]⟩
abbrev S1024x1 : Shape := ⟨2, ![1024, 1]⟩
abbrev S1024x256 : Shape := ⟨2, ![1024, 256]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S1x512, .f32⟩
  | .hbm, ⟨5, _⟩ => ⟨S1, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S1x1, .f32⟩
  | .hbm, ⟨10, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S1024x1, .f32⟩
  | .local _ .vmem, ⟨11, _⟩ => ⟨S1024x1, .f32⟩
  | .local _ .vmem, ⟨12, _⟩ => ⟨S1024x256, .f32⟩
  | .local _ .vmem, ⟨13, _⟩ => ⟨S1024x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 40], ![false, false]⟩

def k0_cond2 (i : grid0.Coords) : BitVec 1 :=
  let arg1 : BitVec 32 := BitVec.ofNat 32 (i 1).val
  let c39_i32 : BitVec 32 := 39#32
  let v23 : BitVec 1 := Scalar.cmpi .eq arg1 c39_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S256_S1x256 : S256.ShapeCasts S1x256
  slices_S1x512_S1x256_0_0 : S1x512.Slices ![0, 0] S1x256
  slices_S1x512_S1x256_0_256 : S1x512.Slices ![0, 256] S1x256
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x40960.size a
  hwx0_0 : ∀ i : grid0.Coords, EltTy.bits .f32 = 32 ∨ (Rect.block (s := S4096x40960) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x40960.size a
  hwx0_1 : ∀ i : grid0.Coords, EltTy.bits .f32 = 32 ∨ (Rect.block (s := S4096x40960) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x40960.size a
  hwx0_2 : ∀ i : grid0.Coords, EltTy.bits .f32 = 32 ∨ (Rect.block (s := S256x40960) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x40960 : Shape := ⟨2, ![4096, 40960]⟩
abbrev S256x40960 : Shape := ⟨2, ![256, 40960]⟩
abbrev S256 : Shape := ⟨1, ![256]⟩
abbrev S1x512 : Shape := ⟨2, ![1, 512]⟩
abbrev S1 : Shape := ⟨1, ![1]⟩
abbrev S40960x256 : Shape := ⟨2, ![40960, 256]⟩
abbrev S4096x256 : Shape := ⟨2, ![4096, 256]⟩
abbrev S1x256 : Shape := ⟨2, ![1, 256]⟩
abbrev S_ : Shape := ⟨0, ![]⟩
abbrev S4096x512 : Shape := ⟨2, ![4096, 512]⟩
abbrev S512x1 : Shape := ⟨2, ![512, 1]⟩
abbrev S4096x1 : Shape := ⟨2, ![4096, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S1x512, .f32⟩
  | .hbm, ⟨5, _⟩ => ⟨S1, .f32⟩
  | .hbm, ⟨6, _⟩ => ⟨S40960x256, .f32⟩
  | .hbm, ⟨7, _⟩ => ⟨S4096x256, .f32⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S40960x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x512, .f32⟩
  | .hbm, ⟨33, _⟩ => ⟨S512x1, .f32⟩
  | .hbm, ⟨34, _⟩ => ⟨S4096x1, .f32⟩
  | .hbm, ⟨35, _⟩ => ⟨S1x1, .f32⟩
  | .hbm, ⟨36, _⟩ => ⟨S4096x1, .f32⟩
  | .hbm, ⟨37, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S1x512_S512x1_1_0 : S1x512.Transposes [1, 0] S512x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x1_S4096x1_1_0_0_1_n_n_wf : DotDims.WF S4096x512 S512x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.Spec.lean ====
/-
  The function both programs compute, over the extended reals, and the two re-arrangements of finite sums that join
  their two spellings of it.

  A batch row b of each of two sparse feature matrices X and Y (4096 × 40960) is sent through one shared affine layer
  (weights W : 256 × 40960, bias fb : 256) and clipped into [0, 1]:

      hid X b h = min 1 (max 0 ((∑ k, X[b,k] · W[h,k]) + fb[h])).

  The 512 clipped activations of the row (X's 256, then Y's 256) are then projected on one weight row ow : 1 × 512 and
  shifted by ob:

      out b = ((∑ h < 256, hid X b h · ow[0,h]) + (∑ h < 256, hid Y b h · ow[0,256+h])) + ob[0].

  One program takes the long sum over k in 40 consecutive stretches of 1024 terms, adding each stretch to a running
  total that starts at zero, and keeps the two halves of the projection apart; the other takes the long sum at once and
  the projection as one sum over 512 terms of the two halves laid side by side. Addition of extended reals is
  commutative and associative, so neither difference changes the value: a sum over 40·1024 terms is the sum of its 40
  stretches (sum_stretches), and a sum over 256 + 256 terms is the sum of its halves (sum_halves). No product is
  distributed and nothing is cancelled, so no entry needs to be finite.
-/
import Idealize.ShloMosaic.PureOps.Ideal
import Idealize.ShloMosaic.PureOps.Ideal.Laws
import Idealize.ShloMosaic.Lib.ValueIdx
import Mathlib.Algebra.BigOperators.Fin

noncomputable section

namespace Cert.FeatureNet

open Idealize.ShloMosaic Idealize.ShloMosaic.ValueIdx
open scoped BigOperators

/-- A matrix of extended reals with a rows and b columns, indexed as the programs' arrays are. -/
abbrev Mat (a b : ℕ) : Type := (⟨2, ![a, b]⟩ : Shape).Idx → EReal
/-- A vector of extended reals of length a. -/
abbrev Row (a : ℕ) : Type := (⟨1, ![a]⟩ : Shape).Idx → EReal

/-- Entry (p, q) of a matrix by natural-number coordinates: zero outside the matrix. Sums over stretches of a row are
    written over these, so that a stretch's first column may be any natural number. -/
def at2 {a b : ℕ} (A : Mat a b) (p q : ℕ) : EReal :=
  if h : p < a ∧ q < b then A (ix2 ⟨p, h.1⟩ ⟨q, h.2⟩) else 0

theorem at2_ix2 {a b : ℕ} (A : Mat a b) (p : Fin a) (q : Fin b) : A (ix2 p q) = at2 A p.val q.val := by
  unfold at2; rw [dif_pos ⟨p.isLt, q.isLt⟩]

/-- The clip into [0, 1], with the two bounds kept as the words both programs print for them. -/
def clip01 (z : EReal) : EReal :=
  min (Ideal.ofBits .f32 0x3F800000#32) (max (Ideal.ofBits .f32 0x00000000#32) z)

/-- The affine layer before its bias: row b of X against row h of W. -/
def feat (X : Mat 4096 40960) (W : Mat 256 40960) (b : Fin 4096) (h : Fin 256) : EReal :=
  ∑ k : Fin 40960, X (ix2 b k) * W (ix2 h k)

/-- The clipped activation. -/
def hid (X : Mat 4096 40960) (W : Mat 256 40960) (fb : Row 256) (b : Fin 4096) (h : Fin 256) : EReal :=
  clip01 (feat X W b h + fb (ix1 h))

/-- Column h of the projection's first half, and of its second half. -/
abbrev lo (h : Fin 256) : Fin 512 := ⟨h.val, by omega⟩
abbrev hi (h : Fin 256) : Fin 512 := ⟨256 + h.val, by omega⟩

/-- The result, one entry per batch row. -/
def out (X Y : Mat 4096 40960) (W : Mat 256 40960) (fb : Row 256) (ow : Mat 1 512) (ob : Row 1) : Mat 4096 1 :=
  fun i =>
    ((∑ h : Fin 256, hid X W fb (i 0) h * ow (ix2 0 (lo h))) + (∑ h : Fin 256, hid Y W fb (i 0) h * ow (ix2 0 (hi h))))
      + ob (ix1 0)

/-! ## The two re-arrangements -/

section Laws

variable {M : Type*} [AddCommMonoid M]

/-- A sum over the first m·n naturals is the sum of its m stretches of n. -/
theorem sum_range_stretches (g : ℕ → M) (m n : ℕ) :
    ∑ k ∈ Finset.range (m * n), g k = ∑ s ∈ Finset.range m, ∑ j ∈ Finset.range n, g (n * s + j) := by
  induction m with
  | zero => simp
  | succ m ih =>
    rw [Nat.succ_mul, Finset.sum_range_add, Finset.sum_range_succ, ih, Nat.mul_comm m n]

/-- The long sum of the affine layer as its 40 stretches of 1024, over natural-number coordinates. -/
theorem sum_stretches (g : ℕ → M) :
    ∑ k : Fin 40960, g k.val = ∑ s ∈ Finset.range 40, ∑ j : Fin 1024, g (1024 * s + j.val) := by
  rw [Fin.sum_univ_eq_sum_range g 40960, show (40960 : ℕ) = 40 * 1024 from rfl, sum_range_stretches]
  exact Finset.sum_congr rfl fun s _ => (Fin.sum_univ_eq_sum_range (fun j => g (1024 * s + j)) 1024).symm

/-- A sum over 512 columns is the sum over the first 256 plus the sum over the last 256. -/
theorem sum_halves (g : Fin 512 → M) : ∑ j : Fin 512, g j = (∑ h : Fin 256, g (lo h)) + ∑ h : Fin 256, g (hi h) := by
  rw [show (∑ j : Fin 512, g j) = ∑ j : Fin (256 + 256), g j from rfl, Fin.sum_univ_add]
  refine congrArg₂ (· + ·) (Finset.sum_congr rfl fun h _ => congrArg g (Fin.ext rfl))
    (Finset.sum_congr rfl fun h _ => congrArg g (Fin.ext rfl))

end Laws

/-- The affine layer's long sum, stretch by stretch. -/
theorem feat_stretches (X : Mat 4096 40960) (W : Mat 256 40960) (b : Fin 4096) (h : Fin 256) :
    feat X W b h = ∑ s ∈ Finset.range 40, ∑ j : Fin 1024, at2 X b.val (1024 * s + j.val) * at2 W h.val (1024 * s + j.val) := by
  unfold feat
  rw [← sum_stretches (fun k => at2 X b.val k * at2 W h.val k)]
  exact Finset.sum_congr rfl fun k _ => by rw [at2_ix2 X b k, at2_ix2 W h k]

end Cert.FeatureNet

end
-- ==== Proof.Pieces.lean ====
/-
  What one run of the kernel's body leaves behind, as values.

  The body keeps two running totals (one for each feature matrix) in two buffers that live across grid points. At the
  first point of a row block it zeroes them; at every point it adds to each the product of the point's block of the
  feature matrix with the point's block of the weights; at the last point of a row block it also forms the output
  block from the two totals it has just updated. Here each buffer's contents after one run of the body are identified
  with the body's own arithmetic (its pure terms "k0_pay…") of what the buffers held before:

    first point    total ← (zero block) updated with this point's blocks,
    other points   total ← (previous total) updated with this point's blocks,
    last point     output ← the closing arithmetic of the two totals AS UPDATED at this point.

  Every load of the body reads a whole buffer and every store overwrites a whole buffer, so a buffer's contents after
  the body are just the last value stored into it, and a load after a store reads that stored value.
-/
import proofs.«136723_j42958262895064_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The offset of a store or load that starts at the buffer's origin. -/
theorem hz : (![0, 0] : Fin 2 → Nat) = fun _ => 0 := funext fun a => by fin_cases a <;> rfl

/-- At the first point of a row block the first total is the zero block updated with the point's blocks: the update reads back the zero block just stored. -/
theorem first_total0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay4 x0 x2 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

/-- The same for the second total. -/
theorem first_total1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay5 x1 x2 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

/-- At a point that is neither first nor last the first total is the previous total updated with the point's blocks. -/
theorem mid_total0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) (xs0 : Vec F S1024x256 .f32) (xs1 : Vec F S1024x256 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

/-- The same for the second total. -/
theorem mid_total1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) (xs0 : Vec F S1024x256 .f32) (xs1 : Vec F S1024x256 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

/-- At the last point of a row block the first total is updated as at any other point. -/
theorem last_total0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) (xs0 : Vec F S1024x256 .f32) (xs1 : Vec F S1024x256 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

/-- The same for the second total. -/
theorem last_total1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) (xs0 : Vec F S1024x256 .f32) (xs1 : Vec F S1024x256 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

/-- At the last point of a row block the output block is the closing arithmetic of the two totals as this point has just updated them (its loads of the totals read the values stored a moment before). -/
theorem last_output (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x1024 .f32) (x1 : Vec F S1024x1024 .f32) (x2 : Vec F S256x1024 .f32) (x3 : Vec F S1x256 .f32) (x4 : Vec F S1x256 .f32) (x5 : Vec F S1x256 .f32) (x6 : Vec F S1x1 .f32) (xs0 : Vec F S1024x256 .f32) (xs1 : Vec F S1024x256 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay6 x3 (k0_pay4 x0 x2 xs0) (k0_pay5 x1 x2 xs1) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, View.ld_unit_zero (S := S1024x1024) hz, View.ld_unit_zero (S := S256x1024) hz, View.ld_unit_zero (S := S1024x256) hz, View.ld_unit_zero (S := S1x256) hz, View.ld_unit_zero (S := S1x1) hz, View.readCov_unit_zero (S := S1024x256) _ hz]

end Cert.KernelIdeal.Pieces

end
-- ==== Proof.Blocks.lean ====
/-
  The kernel's input blocks as entries of the six argument arrays.

  Grid point t (0 ≤ t < 160) works on row block t / 40 (1024 batch rows) and on column stretch t % 40 (1024 feature
  columns). Its block of either feature matrix is rows 1024·(t/40) … and columns 1024·(t%40) … of that matrix; its block
  of the weights is all 256 rows and the same 1024 columns. The four small operands are the same at every point: the
  bias as one row, the first and the second half of the projection's weight row, and the projection's shift as a 1×1
  array; each is made from an argument by a reshape or a slice before the grid starts.
-/
import proofs.«136723_j42958262895064_1_alg».proof.Proof.Gen.KernelIdeal.Frame
import proofs.«136723_j42958262895064_1_alg».proof.Proof.Spec
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen Cert.FeatureNet

variable (m : (ℓ : Loc nD τ sig) → Buf (Elt Ideal) ℓ)

/-! ## The six arguments, as matrices and rows of extended reals -/

abbrev argX (c : Dev nD) : Mat 4096 40960 := m ((c : Thread nD τ).loc main_arg0)
abbrev argY (c : Dev nD) : Mat 4096 40960 := m ((c : Thread nD τ).loc main_arg1)
abbrev argW (c : Dev nD) : Mat 256 40960 := m ((c : Thread nD τ).loc main_arg2)
abbrev argFb (c : Dev nD) : Row 256 := m ((c : Thread nD τ).loc main_arg3)
abbrev argOw (c : Dev nD) : Mat 1 512 := m ((c : Thread nD τ).loc main_arg4)
abbrev argOb (c : Dev nD) : Row 1 := m ((c : Thread nD τ).loc main_arg5)

/-! ## The seven input blocks at a point, each at its literal shape -/

abbrev blkX (c : Dev nD) (t : Fin cfg0.N) : S1024x1024.Idx → EReal := iblk m c 0 t
abbrev blkY (c : Dev nD) (t : Fin cfg0.N) : S1024x1024.Idx → EReal := iblk m c 1 t
abbrev blkW (c : Dev nD) (t : Fin cfg0.N) : S256x1024.Idx → EReal := iblk m c 2 t
abbrev blkFb (c : Dev nD) (t : Fin cfg0.N) : S1x256.Idx → EReal := iblk m c 3 t
abbrev blkLo (c : Dev nD) (t : Fin cfg0.N) : S1x256.Idx → EReal := iblk m c 4 t
abbrev blkHi (c : Dev nD) (t : Fin cfg0.N) : S1x256.Idx → EReal := iblk m c 5 t
abbrev blkOb (c : Dev nD) (t : Fin cfg0.N) : S1x1.Idx → EReal := iblk m c 6 t

/-- An entry of a matrix, by the natural-number values of its index's two coordinates. -/
theorem arr_at2 {a b : ℕ} (A : Mat a b) (j : (⟨2, ![a, b]⟩ : Shape).Idx) : A j = at2 A (j 0).val (j 1).val :=
  (congrArg A (eq_ix2 j)).trans (at2_ix2 A (j 0) (j 1))

/-! ## Which block each window holds at point t (decided once over the 160 points) -/

theorem idxX : ∀ t : Fin cfg0.N, win0_0.index t 0 = t.val / 40 ∧ win0_0.index t 1 = t.val % 40 :=
  (by decide +kernel : ∀ t : Fin grid0.N, win0_0.index t 0 = t.val / 40 ∧ win0_0.index t 1 = t.val % 40)
theorem idxY : ∀ t : Fin cfg0.N, win0_1.index t 0 = t.val / 40 ∧ win0_1.index t 1 = t.val % 40 :=
  (by decide +kernel : ∀ t : Fin grid0.N, win0_1.index t 0 = t.val / 40 ∧ win0_1.index t 1 = t.val % 40)
theorem idxW : ∀ t : Fin cfg0.N, win0_2.index t 0 = 0 ∧ win0_2.index t 1 = t.val % 40 :=
  (by decide +kernel : ∀ t : Fin grid0.N, win0_2.index t 0 = 0 ∧ win0_2.index t 1 = t.val % 40)
theorem idxFb : ∀ t : Fin cfg0.N, win0_3.index t 0 = 0 ∧ win0_3.index t 1 = 0 :=
  (by decide +kernel : ∀ t : Fin grid0.N, win0_3.index t 0 = 0 ∧ win0_3.index t 1 = 0)
theorem idxLo : ∀ t : Fin cfg0.N, win0_4.index t 0 = 0 ∧ win0_4.index t 1 = 0 :=
  (by decide +kernel : ∀ t : Fin grid0.N, win0_4.index t 0 = 0 ∧ win0_4.index t 1 = 0)
theorem idxHi : ∀ t : Fin cfg0.N, win0_5.index t 0 = 0 ∧ win0_5.index t 1 = 0 :=
  (by decide +kernel : ∀ t : Fin grid0.N, win0_5.index t 0 = 0 ∧ win0_5.index t 1 = 0)
theorem idxOb : ∀ t : Fin cfg0.N, win0_6.index t 0 = 0 ∧ win0_6.index t 1 = 0 :=
  (by decide +kernel : ∀ t : Fin grid0.N, win0_6.index t 0 = 0 ∧ win0_6.index t 1 = 0)

/-! ## The three streamed blocks -/

/-- Entry (r, k) of the point's block of the first feature matrix is entry (1024·(t/40) + r, 1024·(t%40) + k) of it. -/
theorem blkX_apply (c : Dev nD) (t : Fin cfg0.N) (r k : Fin 1024) :
    blkX m c t (ix2 r k) = at2 (argX m c) (1024 * (t.val / 40) + r.val) (1024 * (t.val % 40) + k.val) := by
  unfold blkX iblk
  rw [View.read_apply]
  show V m c main_arg0 (((cfg0.win 0).blk t).view.emb (ix2 r k)) = _
  rw [V_main_arg0]
  refine (arr_at2 (argX m c) _).trans ?_
  congr 1
  · show win0_0.index t 0 * 1024 + 1 * r.val = _; rw [(idxX t).1]; omega
  · show win0_0.index t 1 * 1024 + 1 * k.val = _; rw [(idxX t).2]; omega

/-- The same for the second feature matrix. -/
theorem blkY_apply (c : Dev nD) (t : Fin cfg0.N) (r k : Fin 1024) :
    blkY m c t (ix2 r k) = at2 (argY m c) (1024 * (t.val / 40) + r.val) (1024 * (t.val % 40) + k.val) := by
  unfold blkY iblk
  rw [View.read_apply]
  show V m c main_arg1 (((cfg0.win 1).blk t).view.emb (ix2 r k)) = _
  rw [V_main_arg1]
  refine (arr_at2 (argY m c) _).trans ?_
  congr 1
  · show win0_1.index t 0 * 1024 + 1 * r.val = _; rw [(idxY t).1]; omega
  · show win0_1.index t 1 * 1024 + 1 * k.val = _; rw [(idxY t).2]; omega

/-- Entry (h, k) of the point's block of the weights is entry (h, 1024·(t%40) + k) of the weights. -/
theorem blkW_apply (c : Dev nD) (t : Fin cfg0.N) (h : Fin 256) (k : Fin 1024) :
    blkW m c t (ix2 h k) = at2 (argW m c) h.val (1024 * (t.val % 40) + k.val) := by
  unfold blkW iblk
  rw [View.read_apply]
  show V m c main_arg2 (((cfg0.win 2).blk t).view.emb (ix2 h k)) = _
  rw [V_main_arg2]
  refine (arr_at2 (argW m c) _).trans ?_
  congr 1
  · show win0_2.index t 0 * 256 + 1 * h.val = _; rw [(idxW t).1]; omega
  · show win0_2.index t 1 * 1024 + 1 * k.val = _; rw [(idxW t).2]; omega

/-! ## The four small operands, made before the grid starts -/

theorem V_fb (c : Dev nD) : (V m c main_v0 : S1x256.Idx → EReal) = shapeCast S1x256 (argFb m c) shapeCasts_S256_S1x256 := by
  dsimp only [Gen.V, Gen.hostOps0]
  after_results
  rfl

theorem V_lo (c : Dev nD) : (V m c main_v1 : S1x256.Idx → EReal) = extractStridedSlice S1x256 ![0, 0] (argOw m c) slices_S1x512_S1x256_0_0 := by
  dsimp only [Gen.V, Gen.hostOps0]
  after_results

theorem V_hi (c : Dev nD) : (V m c main_v2 : S1x256.Idx → EReal) = extractStridedSlice S1x256 ![0, 256] (argOw m c) slices_S1x512_S1x256_0_256 := by
  dsimp only [Gen.V, Gen.hostOps0]
  after_results

theorem V_ob (c : Dev nD) : (V m c main_v3 : S1x1.Idx → EReal) = shapeCast S1x1 (argOb m c) shapeCasts_S1_S1x1 := by
  dsimp only [Gen.V, Gen.hostOps0]
  after_results
  rfl

/-- The bias block is the bias, as one row. -/
theorem blkFb_apply (c : Dev nD) (t : Fin cfg0.N) (h : Fin 256) : blkFb m c t (ix2 0 h) = argFb m c (ix1 h) := by
  unfold blkFb iblk
  rw [View.read_apply]
  show (V m c main_v0 : S1x256.Idx → EReal) (((cfg0.win 3).blk t).view.emb (ix2 0 h)) = _
  rw [V_fb]
  refine shapeCast_apply _ _ _ _ ?_
  rw [Shape.rowMajor_val_one, Shape.rowMajor_val_two]
  show h.val = (win0_3.index t 0 * 1 + 1 * 0) * 256 + (win0_3.index t 1 * 256 + 1 * h.val)
  rw [(idxFb t).1, (idxFb t).2]; omega

/-- The first-half block is columns 0 … 255 of the projection's weight row. -/
theorem blkLo_apply (c : Dev nD) (t : Fin cfg0.N) (h : Fin 256) : blkLo m c t (ix2 0 h) = argOw m c (ix2 0 (lo h)) := by
  unfold blkLo iblk
  rw [View.read_apply]
  show (V m c main_v1 : S1x256.Idx → EReal) (((cfg0.win 4).blk t).view.emb (ix2 0 h)) = _
  rw [V_lo]
  refine extractStridedSlice_apply _ _ _ _ _ fun a => ?_
  match a with
  | ⟨0, _⟩ => show (0 : ℕ) = 0 + (win0_4.index t 0 * 1 + 1 * 0); rw [(idxLo t).1]
  | ⟨1, _⟩ => show h.val = 0 + (win0_4.index t 1 * 256 + 1 * h.val); rw [(idxLo t).2]; omega

/-- The second-half block is columns 256 … 511 of it. -/
theorem blkHi_apply (c : Dev nD) (t : Fin cfg0.N) (h : Fin 256) : blkHi m c t (ix2 0 h) = argOw m c (ix2 0 (hi h)) := by
  unfold blkHi iblk
  rw [View.read_apply]
  show (V m c main_v2 : S1x256.Idx → EReal) (((cfg0.win 5).blk t).view.emb (ix2 0 h)) = _
  rw [V_hi]
  refine extractStridedSlice_apply _ _ _ _ _ fun a => ?_
  match a with
  | ⟨0, _⟩ => show (0 : ℕ) = 0 + (win0_5.index t 0 * 1 + 1 * 0); rw [(idxHi t).1]
  | ⟨1, _⟩ => show 256 + h.val = 256 + (win0_5.index t 1 * 256 + 1 * h.val); rw [(idxHi t).2]; omega

/-- The shift block is the projection's shift. -/
theorem blkOb_apply (c : Dev nD) (t : Fin cfg0.N) : blkOb m c t (ix2 0 0) = argOb m c (ix1 0) := by
  unfold blkOb iblk
  rw [View.read_apply]
  show (V m c main_v3 : S1x1.Idx → EReal) (((cfg0.win 6).blk t).view.emb (ix2 0 0)) = _
  rw [V_ob]
  refine shapeCast_apply _ _ _ _ ?_
  rw [Shape.rowMajor_val_one, Shape.rowMajor_val_two]
  show (0 : ℕ) = (win0_6.index t 0 * 1 + 1 * 0) * 1 + (win0_6.index t 1 * 1 + 1 * 0)
  rw [(idxOb t).1, (idxOb t).2]

end Cert.KernelIdeal.Blocks

end
-- ==== Proof.Payloads.lean ====
/-
  The kernel's pure values, each read at one index over the extended reals.

  Per grid point the kernel computes five functions of the blocks it has loaded. Two are the zero block, which the two
  running totals start from. Two are one stretch of the affine layer's long sum: entry (r, h) of a running total becomes
  what it held plus ∑ k < 1024, x(r, k) · w(h, k), the block of w being read transposed and the rounding of both
  blocks to the narrower format being the identity on extended reals. The last is the result block: entry (r, 0) is

      ((∑ h < 256, clip (a0(r, h) + fb(0, h)) · oww(0, h)) + (∑ h < 256, clip (a1(r, h) + fb(0, h)) · owb(0, h))) + ob(0, 0),

  the two halves of the projection kept apart, each a sum along the 256 lanes of clipped activations against its own
  weight row. The two bounds of the clip stay the words the kernel writes for them; only the zero word is evaluated.
-/
import proofs.«136723_j42958262895064_1_alg».proof.Proof.Gen.KernelIdeal.Skeleton
import proofs.«136723_j42958262895064_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx Cert.FeatureNet
open scoped BigOperators

/-! ## The two zero blocks -/

/-- The first running total starts as the zero block. -/
theorem pay1_apply (j : S1024x256.Idx) : k0_pay1 (F := Ideal) j = 0 := by
  unfold k0_pay1
  rw [shapeCast_self]
  exact Ideal.ofBits_zero_f32

/-- The second running total starts as the zero block. -/
theorem pay2_apply (j : S1024x256.Idx) : k0_pay2 (F := Ideal) j = 0 := by
  unfold k0_pay2
  rw [shapeCast_self]
  exact Ideal.ofBits_zero_f32

/-! ## One stretch of the long sum: a 1024 × 1024 block against a 1024 × 256 block

The product's left index at output (r, h) and contraction position k is (r, k); its right index is (k, h). -/

theorem lhs_mm_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mm_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mm_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mm_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product into the zero block, at (r, h): the sum over the 1024 contraction positions. -/
theorem mm_apply (x : FVec Ideal S1024x1024 .bf16) (y : FVec Ideal S1024x256 .bf16) (r : Fin 1024) (h : Fin 256) :
    matmul dot_S1024x1024_S1024x256_S1024x256_1_0_0_1_n_n none x y (constant (F := Ideal) S1024x256 .f32 0x00000000#32) (ix2 r h)
      = ∑ kk : Fin 1024, x (ix2 r kk) * y (ix2 kk h) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r h) ((contrEquiv1 dot_S1024x1024_S1024x256_S1024x256_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S1024x1024_S1024x256_S1024x256_1_0_0_1_n_n.rhsIdx (ix2 r h) ((contrEquiv1 dot_S1024x1024_S1024x256_S1024x256_1_0_0_1_n_n 1024 rfl rfl).symm k) = ix2 k h := funext fun a => Fin.ext (by
    match a with
    | ⟨0, _⟩ => exact (rhs_mm_0 _ _).trans hk
    | ⟨1, _⟩ => exact rhs_mm_1 _ _)
  rw [el, er]

/-- The first running total after one stretch: what it held plus the stretch's sum of products. -/
theorem pay4_apply (x : Vec Ideal S1024x1024 .f32) (w : Vec Ideal S256x1024 .f32) (acc : Vec Ideal S1024x256 .f32)
    (r : Fin 1024) (h : Fin 256) :
    k0_pay4 (F := Ideal) x w acc (ix2 r h) = acc (ix2 r h) + ∑ kk : Fin 1024, x (ix2 r kk) * w (ix2 h kk) := by
  unfold k0_pay4 k0_pay3
  rw [shapeCast_self]
  refine (addf_apply _ _ _).trans ?_
  refine congrArg (acc (ix2 r h) + ·) ?_
  refine (mm_apply _ _ r h).trans ?_
  refine Finset.sum_congr rfl fun kk _ => ?_
  rw [truncf_apply, transpose_ix2_apply, truncf_apply]

/-- The second running total after one stretch: the same function of its own block. -/
theorem pay5_apply (x : Vec Ideal S1024x1024 .f32) (w : Vec Ideal S256x1024 .f32) (acc : Vec Ideal S1024x256 .f32)
    (r : Fin 1024) (h : Fin 256) :
    k0_pay5 (F := Ideal) x w acc (ix2 r h) = acc (ix2 r h) + ∑ kk : Fin 1024, x (ix2 r kk) * w (ix2 h kk) := by
  unfold k0_pay5 k0_pay3
  rw [shapeCast_self]
  refine (addf_apply _ _ _).trans ?_
  refine congrArg (acc (ix2 r h) + ·) ?_
  refine (mm_apply _ _ r h).trans ?_
  refine Finset.sum_congr rfl fun kk _ => ?_
  rw [truncf_apply, transpose_ix2_apply, truncf_apply]

/-! ## The projection of the clipped activations

Three layout readings first: a column of 1024 entries seen as a 1024 × 1 block, a lane sum of a 1024 × 256 block, and one
row of 256 entries laid under every one of 1024 rows. -/

/-- A vector of 1024 entries cast to a 1024 × 1 block reads, at (r, 0), the vector at r. -/
theorem col_apply {α : Type} (v : S1024.Idx → α) (r : Fin 1024) (z : Fin 1) :
    shapeCast S1024x1 v shapeCasts_S1024_S1024x1 (ix2 r z) = v (ix1 r) :=
  shapeCast_apply v shapeCasts_S1024_S1024x1 (ix2 r z) (ix1 r) (by
    rw [Shape.rowMajor_val_one, Shape.rowMajor_val_two]
    show r.val = r.val * 1 + z.val
    have := z.isLt
    omega)

/-- The sum along the lanes of a 1024 × 256 block, at row r: the sum of the row's 256 entries. -/
theorem rowsum_apply (src : FVec Ideal S1024x256 .f32) (r : Fin 1024) :
    multiReduction .add [1] S1024 src 0x00000000#32 reduces_S1024x256_S1024 (.inl rfl) rfl (ix1 r)
      = ∑ h : Fin 256, src (ix2 r h) := by
  refine (Ideal.multiReduction_add_single src 0x00000000#32 reduces_S1024x256_S1024 (.inl rfl) rfl (ix1 r)).trans ?_
  refine Finset.sum_congr rfl fun k _ => congrArg src ?_
  funext a
  match a with
  | ⟨0, _⟩ => rfl
  | ⟨1, _⟩ => rfl

/-- One row of 256 entries, laid under each of 1024 rows, reads at (r, h) the row at h. -/
theorem row_apply {α : Type} (v : S1x256.Idx → α) (r : Fin 1024) (h : Fin 256) :
    broadcastTo S1024x256 (shapeCast S1x256 v shapeCasts_S1x256_S1x256) broadcasts_S1x256_S1024x256 (ix2 r h)
      = v (ix2 0 h) := by
  rw [shapeCast_self]
  exact broadcastTo_1b_ab_apply v broadcasts_S1x256_S1024x256 r h

/-- A running total plus the bias row, clipped between the two bounds, at (r, h). -/
theorem clipped_apply (fb : Vec Ideal S1x256 .f32) (a : Vec Ideal S1024x256 .f32) (r : Fin 1024) (h : Fin 256) :
    minimumf (broadcast S1024x256 (Scalar.ofBits (F := Ideal) .f32 0x3F800000#32))
        (maximumf (broadcast S1024x256 (Scalar.ofBits (F := Ideal) .f32 0x00000000#32))
          (addf a (broadcastTo S1024x256 (shapeCast S1x256 fb shapeCasts_S1x256_S1x256) broadcasts_S1x256_S1024x256)))
        (ix2 r h)
      = clip01 (a (ix2 r h) + fb (ix2 0 h)) := by
  unfold clip01
  refine (minimumf_apply _ _ _).trans ?_
  refine congrArg (min (Ideal.ofBits .f32 0x3F800000#32)) ?_
  refine (maximumf_apply _ _ _).trans ?_
  refine congrArg (max (Ideal.ofBits .f32 0x00000000#32)) ?_
  refine (addf_apply _ _ _).trans ?_
  exact congrArg (a (ix2 r h) + ·) (row_apply fb r h)

/-- The result block: both halves of the projection, each a lane sum of clipped activations against its weight row,
    and the shift. -/
theorem pay6_apply (fb : Vec Ideal S1x256 .f32) (a0 a1 : Vec Ideal S1024x256 .f32) (oww owb : Vec Ideal S1x256 .f32)
    (ob : Vec Ideal S1x1 .f32) (r : Fin 1024) (z : Fin 1) :
    k0_pay6 (F := Ideal) fb a0 a1 oww owb ob (ix2 r z)
      = ((∑ h : Fin 256, clip01 (a0 (ix2 r h) + fb (ix2 0 h)) * oww (ix2 0 h))
          + (∑ h : Fin 256, clip01 (a1 (ix2 r h) + fb (ix2 0 h)) * owb (ix2 0 h))) + ob (ix2 0 0) := by
  have hz : z = 0 := Fin.fin_one_eq_zero z
  subst hz
  unfold k0_pay6
  refine (addf_apply _ _ _).trans ?_
  refine congrArg₂ (· + ·) ?_ ?_
  · refine (addf_apply _ _ _).trans ?_
    refine congrArg₂ (· + ·) ?_ ?_
    · refine (col_apply _ r 0).trans ?_
      refine (rowsum_apply _ r).trans ?_
      refine Finset.sum_congr rfl fun h _ => ?_
      refine (mulf_apply _ _ _).trans ?_
      refine congrArg₂ (· * ·) (clipped_apply fb a0 r h) ?_
      rw [shapeCast_self]
      exact row_apply oww r h
    · refine (col_apply _ r 0).trans ?_
      refine (rowsum_apply _ r).trans ?_
      refine Finset.sum_congr rfl fun h _ => ?_
      refine (mulf_apply _ _ _).trans ?_
      refine congrArg₂ (· * ·) (clipped_apply fb a1 r h) ?_
      rw [shapeCast_self]
      exact row_apply owb r h
  · rw [shapeCast_self]
    exact broadcastTo_1b_ab_apply ob broadcasts_S1x1_S1024x1 r 0

end Cert.KernelIdeal.Payloads

end
-- ==== Proof.Accum.lean ====
/-
  The two running totals after every grid point, and the output block at the last point of a row block.

  Write q = t / 40 for the row block and j = t % 40 for the column stretch of grid point t. After point t the first
  running total holds, at (r, h), the sum over the stretches s = 0 … j of

        ∑ k < 1024, X[1024·q + r, 1024·s + k] · W[h, 1024·s + k]                                   ("part")

  and the second the same with Y: at j = 0 the body starts from the zero block, so the total is the first stretch's
  sum alone (0 + a = a); at a later stretch it adds that stretch's sum to what the point before left. By induction on
  the point this holds at every point. At j = 39 the total is the sum of all 40 stretches, that is the whole row of X
  against the whole row of W ("feat"), and the output block the body forms from the two totals and the small operands
  is, entry by entry, the value "out" of the specification at batch row 1024·q + r.
-/
import proofs.«136723_j42958262895064_1_alg».proof.Proof.Gen.KernelIdeal.Frame
import proofs.«136723_j42958262895064_1_alg».proof.Proof.Spec
import proofs.«136723_j42958262895064_1_alg».proof.Proof.Pieces
import proofs.«136723_j42958262895064_1_alg».proof.Proof.Blocks
import proofs.«136723_j42958262895064_1_alg».proof.Proof.Payloads

noncomputable section

namespace Cert.KernelIdeal.Accum

open Idealize.ShloMosaic Idealize.ShloMosaic.TcCoe Idealize.SL.Sem Idealize.ShloMosaic.ValueIdx
open Cert.KernelIdeal Cert.KernelIdeal.Gen Cert.FeatureNet Cert.KernelIdeal.Blocks
open scoped BigOperators

variable (m : (ℓ : Loc nD τ sig) → Buf (Elt Ideal) ℓ)

/-! ## The partial sums -/

/-- The sum of the stretches 0 … j of row 1024·q + r of A against row h of W. -/
def part (A : Mat 4096 40960) (W : Mat 256 40960) (q j : ℕ) (r : Fin 1024) (h : Fin 256) : EReal :=
  ∑ s ∈ Finset.range (j + 1), ∑ k : Fin 1024, at2 A (1024 * q + r.val) (1024 * s + k.val) * at2 W h.val (1024 * s + k.val)

/-- At the first stretch of a row block the partial sum is that stretch's sum. -/
theorem part_first (A : Mat 4096 40960) (W : Mat 256 40960) (n : ℕ) (h0 : n % 40 = 0) (r : Fin 1024) (h : Fin 256) :
    part A W (n / 40) (n % 40) r h
      = ∑ k : Fin 1024, at2 A (1024 * (n / 40) + r.val) (1024 * (n % 40) + k.val) * at2 W h.val (1024 * (n % 40) + k.val) := by
  unfold part
  rw [h0, Nat.zero_add, Finset.sum_range_one]

/-- At a later stretch it is the partial sum up to the stretch before plus this stretch's sum. -/
theorem part_next (A : Mat 4096 40960) (W : Mat 256 40960) (n : ℕ) (h0 : ¬(n + 1) % 40 = 0) (r : Fin 1024) (h : Fin 256) :
    part A W ((n + 1) / 40) ((n + 1) % 40) r h
      = part A W (n / 40) (n % 40) r h
        + ∑ k : Fin 1024, at2 A (1024 * ((n + 1) / 40) + r.val) (1024 * ((n + 1) % 40) + k.val)
            * at2 W h.val (1024 * ((n + 1) % 40) + k.val) := by
  have e1 : (n + 1) / 40 = n / 40 := by omega
  have e2 : (n + 1) % 40 = n % 40 + 1 := by omega
  unfold part
  rw [e1, e2, Finset.sum_range_succ]

/-- All 40 stretches: the whole row of A against the whole row of W. -/
theorem part_last (A : Mat 4096 40960) (W : Mat 256 40960) (q : ℕ) (r : Fin 1024) (h : Fin 256) (hb : 1024 * q + r.val < 4096) :
    part A W q 39 r h = feat A W ⟨1024 * q + r.val, hb⟩ h := by
  rw [feat_stretches]
  rfl

/-! ## One point's step of the two totals -/

/-- What the point before left in the two totals (read only at points that are not the first of their row block). -/
abbrev prev0 (c : Dev nD) (t : Fin cfg0.N) : S1024x256.Idx → EReal :=
  (outsAt0 m c (t.val - 1) (Nat.lt_of_le_of_lt (Nat.sub_le _ _) t.isLt)).2.1
abbrev prev1 (c : Dev nD) (t : Fin cfg0.N) : S1024x256.Idx → EReal :=
  (outsAt0 m c (t.val - 1) (Nat.lt_of_le_of_lt (Nat.sub_le _ _) t.isLt)).2.2
/-- What this point leaves in them. -/
abbrev tot0 (c : Dev nD) (t : Fin cfg0.N) : S1024x256.Idx → EReal := (outsAt0 m c t.val t.isLt).2.1
abbrev tot1 (c : Dev nD) (t : Fin cfg0.N) : S1024x256.Idx → EReal := (outsAt0 m c t.val t.isLt).2.2

/-- This point's stretch of a row of X against a row of W, over the point's blocks. -/
abbrev stretchX (c : Dev nD) (t : Fin cfg0.N) (r : Fin 1024) (h : Fin 256) : EReal :=
  ∑ k : Fin 1024, blkX m c t (ix2 r k) * blkW m c t (ix2 h k)
abbrev stretchY (c : Dev nD) (t : Fin cfg0.N) (r : Fin 1024) (h : Fin 256) : EReal :=
  ∑ k : Fin 1024, blkY m c t (ix2 r k) * blkW m c t (ix2 h k)

/-- At the first point of a row block the first total is this stretch's sum (the zero block plus it). -/
theorem tot0_first (c : Dev nD) (t : Fin cfg0.N) (h0 : t.val % 40 = 0) (h1 : ¬t.val % 40 = 39) (r : Fin 1024) (h : Fin 256) :
    tot0 m c t (ix2 r h) = stretchX m c t r h := by
  unfold tot0
  rw [outsAt0_A m c t h0 h1]
  dsimp only
  refine (congrFun (Pieces.first_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hh => h1 ((hcond0_1 t).mp hh)) (blkX m c t) (blkY m c t) (blkW m c t) (blkFb m c t) (blkLo m c t) (blkHi m c t) (blkOb m c t)) (ix2 r h)).trans ?_
  refine (Payloads.pay4_apply (blkX m c t) (blkW m c t) (k0_pay1 (F := Ideal)) r h).trans ?_
  rw [Payloads.pay1_apply, zero_add]

theorem tot1_first (c : Dev nD) (t : Fin cfg0.N) (h0 : t.val % 40 = 0) (h1 : ¬t.val % 40 = 39) (r : Fin 1024) (h : Fin 256) :
    tot1 m c t (ix2 r h) = stretchY m c t r h := by
  unfold tot1
  rw [outsAt0_A m c t h0 h1]
  dsimp only
  refine (congrFun (Pieces.first_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hh => h1 ((hcond0_1 t).mp hh)) (blkX m c t) (blkY m c t) (blkW m c t) (blkFb m c t) (blkLo m c t) (blkHi m c t) (blkOb m c t)) (ix2 r h)).trans ?_
  refine (Payloads.pay5_apply (blkY m c t) (blkW m c t) (k0_pay2 (F := Ideal)) r h).trans ?_
  rw [Payloads.pay2_apply, zero_add]

/-- At any other point it is what the point before left plus this stretch's sum. -/
theorem tot0_next (c : Dev nD) (t : Fin cfg0.N) (h0 : ¬t.val % 40 = 0) (r : Fin 1024) (h : Fin 256) :
    tot0 m c t (ix2 r h) = prev0 m c t (ix2 r h) + stretchX m c t r h := by
  unfold tot0
  by_cases h1 : t.val % 40 = 39
  · rw [outsAt0_C m c t h0 h1]
    dsimp only
    refine (congrFun (Pieces.last_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (blkX m c t) (blkY m c t) (blkW m c t) (blkFb m c t) (blkLo m c t) (blkHi m c t) (blkOb m c t) (prev0 m c t) (prev1 m c t)) (ix2 r h)).trans ?_
    exact Payloads.pay4_apply (blkX m c t) (blkW m c t) (prev0 m c t) r h
  · rw [outsAt0_B m c t h0 h1]
    dsimp only
    refine (congrFun (Pieces.mid_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) (fun hh => h1 ((hcond0_1 t).mp hh)) (blkX m c t) (blkY m c t) (blkW m c t) (blkFb m c t) (blkLo m c t) (blkHi m c t) (blkOb m c t) (prev0 m c t) (prev1 m c t)) (ix2 r h)).trans ?_
    exact Payloads.pay4_apply (blkX m c t) (blkW m c t) (prev0 m c t) r h

theorem tot1_next (c : Dev nD) (t : Fin cfg0.N) (h0 : ¬t.val % 40 = 0) (r : Fin 1024) (h : Fin 256) :
    tot1 m c t (ix2 r h) = prev1 m c t (ix2 r h) + stretchY m c t r h := by
  unfold tot1
  by_cases h1 : t.val % 40 = 39
  · rw [outsAt0_C m c t h0 h1]
    dsimp only
    refine (congrFun (Pieces.last_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (blkX m c t) (blkY m c t) (blkW m c t) (blkFb m c t) (blkLo m c t) (blkHi m c t) (blkOb m c t) (prev0 m c t) (prev1 m c t)) (ix2 r h)).trans ?_
    exact Payloads.pay5_apply (blkY m c t) (blkW m c t) (prev1 m c t) r h
  · rw [outsAt0_B m c t h0 h1]
    dsimp only
    refine (congrFun (Pieces.mid_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) (fun hh => h1 ((hcond0_1 t).mp hh)) (blkX m c t) (blkY m c t) (blkW m c t) (blkFb m c t) (blkLo m c t) (blkHi m c t) (blkOb m c t) (prev0 m c t) (prev1 m c t)) (ix2 r h)).trans ?_
    exact Payloads.pay5_apply (blkY m c t) (blkW m c t) (prev1 m c t) r h

/-- This point's stretch, over the argument arrays. -/
theorem stretchX_eq (c : Dev nD) (t : Fin cfg0.N) (r : Fin 1024) (h : Fin 256) :
    stretchX m c t r h = ∑ k : Fin 1024, at2 (argX m c) (1024 * (t.val / 40) + r.val) (1024 * (t.val % 40) + k.val)
      * at2 (argW m c) h.val (1024 * (t.val % 40) + k.val) :=
  Finset.sum_congr rfl fun k _ => by rw [blkX_apply, blkW_apply]

theorem stretchY_eq (c : Dev nD) (t : Fin cfg0.N) (r : Fin 1024) (h : Fin 256) :
    stretchY m c t r h = ∑ k : Fin 1024, at2 (argY m c) (1024 * (t.val / 40) + r.val) (1024 * (t.val % 40) + k.val)
      * at2 (argW m c) h.val (1024 * (t.val % 40) + k.val) :=
  Finset.sum_congr rfl fun k _ => by rw [blkY_apply, blkW_apply]

/-! ## The totals after every point -/

/-- After point n the two totals are the partial sums up to stretch n % 40 of row block n / 40. -/
theorem totals (c : Dev nD) : ∀ (n : ℕ) (hn : n < cfg0.N) (r : Fin 1024) (h : Fin 256),
    tot0 m c ⟨n, hn⟩ (ix2 r h) = part (argX m c) (argW m c) (n / 40) (n % 40) r h
    ∧ tot1 m c ⟨n, hn⟩ (ix2 r h) = part (argY m c) (argW m c) (n / 40) (n % 40) r h
  | 0, hn, r, h => by
    have h1 : ¬(⟨0, hn⟩ : Fin cfg0.N).val % 40 = 39 := by show ¬(0 : ℕ) % 40 = 39; decide
    exact ⟨(tot0_first m c ⟨0, hn⟩ rfl h1 r h).trans ((stretchX_eq m c ⟨0, hn⟩ r h).trans (part_first _ _ 0 rfl r h).symm),
      (tot1_first m c ⟨0, hn⟩ rfl h1 r h).trans ((stretchY_eq m c ⟨0, hn⟩ r h).trans (part_first _ _ 0 rfl r h).symm)⟩
  | n + 1, hn, r, h => by
    by_cases h0 : (n + 1) % 40 = 0
    · have h1 : ¬(n + 1) % 40 = 39 := by omega
      exact ⟨(tot0_first m c ⟨n + 1, hn⟩ h0 h1 r h).trans ((stretchX_eq m c ⟨n + 1, hn⟩ r h).trans (part_first _ _ (n + 1) h0 r h).symm),
        (tot1_first m c ⟨n + 1, hn⟩ h0 h1 r h).trans ((stretchY_eq m c ⟨n + 1, hn⟩ r h).trans (part_first _ _ (n + 1) h0 r h).symm)⟩
    · have ih := totals c n (Nat.lt_of_succ_lt hn) r h
      constructor
      · rw [tot0_next m c ⟨n + 1, hn⟩ h0 r h, part_next _ _ n h0 r h, stretchX_eq]
        exact congrArg (· + _) ih.1
      · rw [tot1_next m c ⟨n + 1, hn⟩ h0 r h, part_next _ _ n h0 r h, stretchY_eq]
        exact congrArg (· + _) ih.2

/-! ## The output block at the last point of a row block -/

/-- The batch row that row r of the point's output block is. -/
theorem row_lt (t : Fin cfg0.N) (r : Fin 1024) : 1024 * (t.val / 40) + r.val < 4096 := by
  have hN : t.val < 160 := lt_of_lt_of_eq t.isLt (show cfg0.N = 160 from N_0)
  have := r.isLt
  omega

/-- At the last point of a row block the output block holds, at row r, the specification's value at batch row
    1024·(t/40) + r. -/
theorem out_last (c : Dev nD) (t : Fin cfg0.N) (h0 : ¬t.val % 40 = 0) (h1 : t.val % 40 = 39) (r : Fin 1024) (z : Fin 1) :
    ((outsAt0 m c t.val t.isLt).1 : S1024x1.Idx → EReal) (ix2 r z)
      = out (argX m c) (argY m c) (argW m c) (argFb m c) (argOw m c) (argOb m c) (ix2 ⟨1024 * (t.val / 40) + r.val, row_lt t r⟩ 0) := by
  have e0 : (k0_pay4 (F := Ideal) (blkX m c t) (blkW m c t) (prev0 m c t) : S1024x256.Idx → EReal) = tot0 m c t := by
    unfold tot0
    rw [outsAt0_C m c t h0 h1]
    dsimp only
    exact (Pieces.last_total0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (blkX m c t) (blkY m c t) (blkW m c t) (blkFb m c t) (blkLo m c t) (blkHi m c t) (blkOb m c t) (prev0 m c t) (prev1 m c t)).symm
  have e1 : (k0_pay5 (F := Ideal) (blkY m c t) (blkW m c t) (prev1 m c t) : S1024x256.Idx → EReal) = tot1 m c t := by
    unfold tot1
    rw [outsAt0_C m c t h0 h1]
    dsimp only
    exact (Pieces.last_total1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (blkX m c t) (blkY m c t) (blkW m c t) (blkFb m c t) (blkLo m c t) (blkHi m c t) (blkOb m c t) (prev0 m c t) (prev1 m c t)).symm
  rw [outsAt0_C m c t h0 h1]
  dsimp only
  refine (congrFun (Pieces.last_output (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (blkX m c t) (blkY m c t) (blkW m c t) (blkFb m c t) (blkLo m c t) (blkHi m c t) (blkOb m c t) (prev0 m c t) (prev1 m c t)) (ix2 r z)).trans ?_
  rw [e0, e1]
  refine (Payloads.pay6_apply (blkFb m c t) (tot0 m c t) (tot1 m c t) (blkLo m c t) (blkHi m c t) (blkOb m c t) r z).trans ?_
  have hq : ∀ h : Fin 256, tot0 m c t (ix2 r h) = feat (argX m c) (argW m c) ⟨1024 * (t.val / 40) + r.val, row_lt t r⟩ h
      ∧ tot1 m c t (ix2 r h) = feat (argY m c) (argW m c) ⟨1024 * (t.val / 40) + r.val, row_lt t r⟩ h := fun h => by
    have := totals m c t.val t.isLt r h
    rw [h1] at this
    exact ⟨this.1.trans (part_last _ _ _ r h _), this.2.trans (part_last _ _ _ r h _)⟩
  unfold out hid
  refine congrArg₂ (· + ·) (congrArg₂ (· + ·) (Finset.sum_congr rfl fun h _ => ?_) (Finset.sum_congr rfl fun h _ => ?_)) (blkOb_apply m c t)
  · rw [(hq h).1, blkFb_apply, blkLo_apply]
  · rw [(hq h).2, blkFb_apply, blkHi_apply]

end Cert.KernelIdeal.Accum

end
-- ==== Proof.Final.lean ====
/-
  The kernel's result array after the run, and the run re-stated over it.

  The output block of row block q is written back once, after the last column stretch (grid point 40·q + 39), and
  holds the specification's values at batch rows 1024·q … 1024·q + 1023. The four row blocks tile the 4096 × 1 result,
  so after the run the result array is the specification's function "out" of the six arguments.
-/
import proofs.«136723_j42958262895064_1_alg».proof.Proof.Gen.KernelIdeal.Value
import proofs.«136723_j42958262895064_1_alg».proof.Proof.Accum

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.FeatureNet Cert.KernelIdeal.Blocks

variable (m : (ℓ : Loc nD τ sig) → Buf (Elt Ideal) ℓ) (ρ : Dev nD → PrngReg)

/-- The specification's function of the six arguments, as contents of the result array. -/
abbrev result (c : Dev nD) : Buf (Elt Ideal) ((c : Thread nD τ).loc main_v4) :=
  out (argX m c) (argY m c) (argW m c) (argFb m c) (argOw m c) (argOb m c)

/-- The output window's block at point t is row block t / 40 (its one column block). -/
theorem idxOut : ∀ t : Fin cfg0.N, win0_7.index t 0 = t.val / 40 ∧ win0_7.index t 1 = 0 :=
  (by decide +kernel : ∀ t : Fin grid0.N, win0_7.index t 0 = t.val / 40 ∧ win0_7.index t 1 = 0)

/-- What a write-back writes is its block of the specification's function. -/
theorem flushed_eq (c : Dev nD) (t : Fin cfg0.N) (hf : (cfg0.win 7).flush t = true) :
    (dats m 0 c).flushed 7 t = ((cfg0.win 7).blk t).view.read (Elt Ideal) (result m c) := by
  have h1 : t.val % 40 = 39 := (flush0_7 t).mp hf
  have h0 : ¬t.val % 40 = 0 := by omega
  rw [Value.flushed7]
  funext y
  obtain ⟨r, z, rfl⟩ : ∃ (r : Fin 1024) (z : Fin 1), y = ix2 r z := ⟨y 0, y 1, eq_ix2 y⟩
  show ((outsAt0 m c t.val t.isLt).1 : S1024x1.Idx → EReal) (ix2 r z)
    = result m c (((cfg0.win 7).blk t).view.emb (ix2 r z))
  rw [Accum.out_last m c t h0 h1 r z]
  refine congrArg (out (argX m c) (argY m c) (argW m c) (argFb m c) (argOw m c) (argOb m c)) ?_
  funext a
  apply Fin.ext
  match a with
  | ⟨0, _⟩ => show 1024 * (t.val / 40) + r.val = win0_7.index t 0 * 1024 + 1 * r.val; rw [(idxOut t).1]; omega
  | ⟨1, _⟩ => show (0 : ℕ) = win0_7.index t 1 * 1 + 1 * z.val; rw [(idxOut t).2]; have := z.isLt; omega

/-- An index of the result is in point t's block iff each coordinate is in the block's range on its axis. -/
theorem mem_blk (t : Fin cfg0.N) (i : S4096x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v4).slice (win0_7.rect t)).set ↔ _
  rw [View.set_slice_whole, Rect.mem_set_unit]
  exact Iff.rfl

/-- Every batch row lies in the block written back after its row block's last stretch. -/
theorem cover (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 160 := N_0
  have ht : 40 * ((i 0).val / 1024) + 39 < cfg0.N := by rw [hN]; omega
  refine ⟨⟨40 * ((i 0).val / 1024) + 39, ht⟩, (flush0_7 _).mpr (by show (40 * ((i 0).val / 1024) + 39) % 40 = 39; omega), ?_⟩
  rw [mem_blk]
  have hq : (40 * ((i 0).val / 1024) + 39) / 40 = (i 0).val / 1024 := by omega
  intro a
  match a with
  | ⟨0, _⟩ =>
    show win0_7.index ⟨40 * ((i 0).val / 1024) + 39, ht⟩ 0 * 1024 ≤ (i 0).val ∧ (i 0).val < win0_7.index ⟨40 * ((i 0).val / 1024) + 39, ht⟩ 0 * 1024 + 1024
    rw [(idxOut ⟨40 * ((i 0).val / 1024) + 39, ht⟩).1]
    show (40 * ((i 0).val / 1024) + 39) / 40 * 1024 ≤ (i 0).val ∧ (i 0).val < (40 * ((i 0).val / 1024) + 39) / 40 * 1024 + 1024
    rw [hq]; omega
  | ⟨1, _⟩ =>
    show win0_7.index ⟨40 * ((i 0).val / 1024) + 39, ht⟩ 1 * 1 ≤ (i 1).val ∧ (i 1).val < win0_7.index ⟨40 * ((i 0).val / 1024) + 39, ht⟩ 1 * 1 + 1
    rw [(idxOut ⟨40 * ((i 0).val / 1024) + 39, ht⟩).2]; omega

/-- After the run the result array holds the specification's function of the arguments. -/
theorem final (c : Dev nD) : (dats m 0 c).arrAt 7 cfg0.N = result m c :=
  (dats m 0 c).arrAt_eq_of_cover 7 (result m c) (flushed_eq m c) cover

/-- The run, read: the result array at the specification's function, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Final

end
-- ==== Proof.RefOut.lean ====
/-
  The reference program's result is the specification's function.

  The reference forms, for each of the two feature matrices, the product with the transposed weights (a sum over the
  40960 columns at once), adds the bias along the rows, and clips with a maximum against 0 and a minimum against 1;
  it lays the two clipped 4096 × 256 arrays side by side, takes the product with the transposed projection row (one
  sum over 512 columns) and adds the shift. Read at an entry (b, 0), the sum over 512 columns is the sum over the
  first 256, where the joined array is the first piece, plus the sum over the last 256, where it is the second piece;
  each piece at (b, h) is the clipped activation of the specification, with the same two bounds.
-/
import proofs.«136723_j42958262895064_1_alg».proof.Proof.Gen.ReferenceIdeal.Read
import proofs.«136723_j42958262895064_1_alg».proof.Proof.Spec
import Idealize.ShloMosaic.Lib.Pipeline.Value
import Idealize.ShloMosaic.Lib.ValueIdx
import Idealize.ShloMosaic.PureOps.Ideal.Laws

noncomputable section

namespace Cert.ReferenceIdeal.RefOut

open Cert.ReferenceIdeal Cert.ReferenceIdeal.Gen Cert.ReferenceIdeal.Read Cert.FeatureNet
open Idealize.ShloMosaic Idealize.ShloMosaic.ValueIdx
open scoped BigOperators

/-- The first clipped array at (b, h) is the clipped activation of X. -/
theorem left_eq_hid (x0 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (h : Fin 256) :
    val_main_v5 (F := Ideal) x0 x2 x3 (ix2 b h) = hid x0 x2 x3 b h := by
  rw [val_main_v5_apply, val_main_call0_v4_apply, val_main_call0_v3_apply, val_main_cst_0_apply,
    val_main_call0_v2_apply, val_main_call0_v1_apply, val_main_call0_v0_apply, val_main_cst_apply,
    val_main_v4_apply, val_main_v1_apply, val_main_v3_apply, val_main_v2_apply]
  simp only [val_main_v0_apply, Ideal.minimumf_def, Ideal.maximumf_def, Ideal.addf_def, Ideal.ofBits_def]
  unfold hid feat clip01
  have e1 : ∀ k : Fin 40960, lidx_main_v1 (ix2 b h) k = ix2 b k := fun k =>
    funext fun a => Fin.ext (by match a with | ⟨0, _⟩ => rfl | ⟨1, _⟩ => rfl)
  have e2 : ∀ k : Fin 40960, idx_main_v0 (ridx_main_v1 (ix2 b h) k) = ix2 h k := fun k =>
    funext fun a => Fin.ext (by match a with | ⟨0, _⟩ => rfl | ⟨1, _⟩ => rfl)
  have e3 : idx_main_v2 (idx_main_v3 (ix2 b h)) = ix1 h :=
    funext fun a => Fin.ext (by match a with | ⟨0, _⟩ => rfl)
  simp only [e1, e2, e3]

/-- The second clipped array at (b, h) is the clipped activation of Y. -/
theorem right_eq_hid (x1 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (h : Fin 256) :
    val_main_v11 (F := Ideal) x1 x2 x3 (ix2 b h) = hid x1 x2 x3 b h := by
  rw [val_main_v11_apply, val_main_call1_v4_apply, val_main_call1_v3_apply, val_main_cst_2_apply,
    val_main_call1_v2_apply, val_main_call1_v1_apply, val_main_call1_v0_apply, val_main_cst_1_apply,
    val_main_v10_apply, val_main_v7_apply, val_main_v9_apply, val_main_v8_apply]
  simp only [val_main_v6_apply, Ideal.minimumf_def, Ideal.maximumf_def, Ideal.addf_def, Ideal.ofBits_def]
  unfold hid feat clip01
  have e1 : ∀ k : Fin 40960, lidx_main_v7 (ix2 b h) k = ix2 b k := fun k =>
    funext fun a => Fin.ext (by match a with | ⟨0, _⟩ => rfl | ⟨1, _⟩ => rfl)
  have e2 : ∀ k : Fin 40960, idx_main_v6 (ridx_main_v7 (ix2 b h) k) = ix2 h k := fun k =>
    funext fun a => Fin.ext (by match a with | ⟨0, _⟩ => rfl | ⟨1, _⟩ => rfl)
  have e3 : idx_main_v8 (idx_main_v9 (ix2 b h)) = ix1 h :=
    funext fun a => Fin.ext (by match a with | ⟨0, _⟩ => rfl)
  simp only [e1, e2, e3]

/-- On a column of the first half the joined array is its first piece. -/
theorem joined_lo (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (z : Fin 1) (h : Fin 256) :
    val_main_v12 (F := Ideal) x0 x1 x2 x3 (lidx_main_v14 (ix2 b z) (lo h)) = val_main_v5 (F := Ideal) x0 x2 x3 (ix2 b h) := by
  unfold val_main_v12
  exact concatenate_pair_apply_left 1 _ _ concatenates_S4096x256_S4096x256_S4096x512_d1 _ rfl (ix2 b h)
    (fun a => match a with | ⟨0, _⟩ => rfl | ⟨1, _⟩ => rfl)

/-- On a column of the second half the joined array is its second piece, 256 columns back. -/
theorem joined_hi (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (b : Fin 4096) (z : Fin 1) (h : Fin 256) :
    val_main_v12 (F := Ideal) x0 x1 x2 x3 (lidx_main_v14 (ix2 b z) (hi h)) = val_main_v11 (F := Ideal) x1 x2 x3 (ix2 b h) := by
  unfold val_main_v12
  exact concatenate_pair_apply_right 1 _ _ concatenates_S4096x256_S4096x256_S4096x512_d1 _ rfl rfl (ix2 b h)
    (fun a => match a with | ⟨0, _⟩ => fun _ => rfl | ⟨1, _⟩ => fun hne => absurd rfl hne)
    (by show h.val + 256 = 256 + h.val; omega)

/-- The reference's result is the specification's function. -/
theorem val_eq_out (x0 x1 : (⟨S4096x40960, .f32⟩ : BufTy).Contents (Elt Ideal)) (x2 : (⟨S256x40960, .f32⟩ : BufTy).Contents (Elt Ideal))
    (x3 : (⟨S256, .f32⟩ : BufTy).Contents (Elt Ideal)) (x4 : (⟨S1x512, .f32⟩ : BufTy).Contents (Elt Ideal))
    (x5 : (⟨S1, .f32⟩ : BufTy).Contents (Elt Ideal)) :
    Cert.ReferenceIdeal.Read.val_main_v17 (F := Ideal) x0 x1 x2 x3 x4 x5 = Cert.FeatureNet.out x0 x1 x2 x3 x4 x5 := by
  funext i
  obtain ⟨b, z, rfl⟩ : ∃ (b : Fin 4096) (z : Fin 1), i = ix2 b z := ⟨i 0, i 1, eq_ix2 i⟩
  rw [val_main_v17_apply, val_main_v14_apply, val_main_v16_apply, val_main_v15_apply, Ideal.addf_def, sum_halves]
  simp only [joined_lo, joined_hi, left_eq_hid, right_eq_hid, val_main_v13_apply]
  unfold Cert.FeatureNet.out
  have e1 : ∀ k : Fin 512, idx_main_v13 (ridx_main_v14 (ix2 b z) k) = ix2 0 k := fun k =>
    funext fun a => Fin.ext (by match a with | ⟨0, _⟩ => exact Nat.lt_one_iff.mp z.isLt | ⟨1, _⟩ => rfl)
  have e2 : idx_main_v15 (idx_main_v16 (ix2 b z)) = ix1 0 :=
    funext fun a => Fin.ext (by match a with | ⟨0, _⟩ => rfl)
  simp only [e1, e2]

end Cert.ReferenceIdeal.RefOut

end
-- ==== Proof.lean ====
/-
  The certificate's claims, assembled.

  The kernel computes, for each of 4096 batch rows b,

      out b = ((∑ h < 256, hid X b h · ow[0,h]) + (∑ h < 256, hid Y b h · ow[0,256+h])) + ob[0],
      hid A b h = min 1 (max 0 ((∑ k < 40960, A[b,k] · W[h,k]) + fb[h])),

  taking the long sum over k in 40 stretches of 1024 columns, one per grid point, into two running totals that it
  keeps across the points of a row block, and forming the output from the totals after the last stretch. The
  reference takes the two long sums whole, lays the two clipped halves side by side and projects them by one sum
  over 512 columns. Over the extended reals addition is commutative and associative, so both are the function "out" of
  Proof/Spec.lean: the kernel's result array by Proof/Final.lean (over Proof/Accum.lean: the totals after every point,
  by induction on the point), the reference's by Proof/RefOut.lean. Neither side needs an input to be finite.

  The three frames are the generated ones (the reference's is its run with the result dropped); the idealization
  rewrote nothing, so "preserves" has nothing to state.
-/
import proofs.«136723_j42958262895064_1_alg».proof.Defs
import proofs.«136723_j42958262895064_1_alg».proof.Proof.Gen.Kernel
import proofs.«136723_j42958262895064_1_alg».proof.Proof.Gen.Kernel.Skeleton
import proofs.«136723_j42958262895064_1_alg».proof.Proof.Gen.Kernel.Launch
import proofs.«136723_j42958262895064_1_alg».proof.Proof.Gen.Kernel.Points
import proofs.«136723_j42958262895064_1_alg».proof.Proof.Gen.Kernel.Frame
import proofs.«136723_j42958262895064_1_alg».proof.Proof.Gen.KernelIdeal
import proofs.«136723_j42958262895064_1_alg».proof.Proof.Gen.KernelIdeal.Skeleton
import proofs.«136723_j42958262895064_1_alg».proof.Proof.Gen.KernelIdeal.Launch
import proofs.«136723_j42958262895064_1_alg».proof.Proof.Gen.KernelIdeal.Points
import proofs.«136723_j42958262895064_1_alg».proof.Proof.Gen.KernelIdeal.Frame
import proofs.«136723_j42958262895064_1_alg».proof.Proof.Gen.ReferenceIdeal
import proofs.«136723_j42958262895064_1_alg».proof.Proof.Gen.Pre_finite_inputs
import proofs.«136723_j42958262895064_1_alg».proof.Proof.Gen.KernelIdeal.Value
import proofs.«136723_j42958262895064_1_alg».proof.Proof.Gen.ReferenceIdeal.Run
import proofs.«136723_j42958262895064_1_alg».proof.Proof.Gen.ReferenceIdeal.Read
import proofs.«136723_j42958262895064_1_alg».proof.Proof.Final
import proofs.«136723_j42958262895064_1_alg».proof.Proof.RefOut
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the six arguments both programs end with the same result array: the specification's
    function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans (Cert.ReferenceIdeal.RefOut.val_eq_out _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
